-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x512x512 : Shape := ⟨4, ![32, 3, 512, 512]⟩
abbrev S_ : Shape := ⟨0, ![]⟩

class Facts : Prop where
  bcast_S_S32x3x512x512 : S_.BroadcastsInDim S32x3x512x512 (![] : Fin 0 → Fin S32x3x512x512.rank)
  reducesTo_S32x3x512x512_S_d0_1_2_3 : S32x3x512x512.ReducesTo [0, 1, 2, 3] S_
  h_S_ : 0 < S_.numel

variable [Facts]

def fn {F : FTy → Type} [FloatOps F] (main_arg0 : FVec F S32x3x512x512 .f32) (main_arg1 : FVec F S32x3x512x512 .f32) : IVec S_ 1 :=
  let main_v0 : FVec F S32x3x512x512 .f32 := Host.absf main_arg0
  let main_cst : FVec F S_ .f32 := constant S_ .f32 0x7F800000#32
  let main_v1 : FVec F S32x3x512x512 .f32 := broadcastInDim S32x3x512x512 ![] bcast_S_S32x3x512x512 main_cst
  let main_v2 : IVec S32x3x512x512 1 := cmpf .olt main_v0 main_v1
  let main_c : IVec S_ 1 := constantI S_ 1 1#1
  let main_v3 : IVec S_ 1 := (fun x v => Host.reduce IntOp.andi x v reducesTo_S32x3x512x512_S_d0_1_2_3 h_S_) main_v2 main_c
  let main_v4 : FVec F S32x3x512x512 .f32 := Host.absf main_arg1
  let main_cst_0 : FVec F S_ .f32 := constant S_ .f32 0x7F800000#32
  let main_v5 : FVec F S32x3x512x512 .f32 := broadcastInDim S32x3x512x512 ![] bcast_S_S32x3x512x512 main_cst_0
  let main_v6 : IVec S32x3x512x512 1 := cmpf .olt main_v4 main_v5
  let main_c_1 : IVec S_ 1 := constantI S_ 1 1#1
  let main_v7 : IVec S_ 1 := (fun x v => Host.reduce IntOp.andi x v reducesTo_S32x3x512x512_S_d0_1_2_3 h_S_) main_v6 main_c_1
  let main_v8 : IVec S_ 1 := andi main_v3 main_v7
  main_v8
-- ==== Kernel.lean ====
abbrev S32x3x512x512 : Shape := ⟨4, ![32, 3, 512, 512]⟩
abbrev S32x3 : Shape := ⟨2, ![32, 3]⟩
abbrev S8x3x64x512 : Shape := ⟨4, ![8, 3, 64, 512]⟩
abbrev S8x3 : Shape := ⟨2, ![8, 3]⟩
abbrev S8x3x64 : Shape := ⟨3, ![8, 3, 64]⟩
abbrev S_ : Shape := ⟨0, ![]⟩

abbrev nBuf : Space → Nat
  | .hbm => 26
  | .vmem => 10
  | .smem => 0
  | _ => 0

abbrev bufTy : (tb : Table) → Fin (tcTables nBuf tb) → BufTy
  | .hbm, ⟨0, _⟩ => ⟨S32x3x512x512, .f32⟩
  | .hbm, ⟨1, _⟩ => ⟨S32x3x512x512, .f32⟩
  | .hbm, ⟨2, _⟩ => ⟨S32x3, .f32⟩
  | .hbm, ⟨3, _⟩ => ⟨S32x3, .f32⟩
  | .hbm, ⟨4, _⟩ => ⟨S32x3, .f32⟩
  | .hbm, ⟨5, _⟩ => ⟨S32x3, .f32⟩
  | .hbm, ⟨6, _⟩ => ⟨S32x3, .f32⟩
  | .hbm, ⟨7, _⟩ => ⟨S_, .f32⟩
  | .hbm, ⟨8, _⟩ => ⟨S32x3, .f32⟩
  | .hbm, ⟨9, _⟩ => ⟨S32x3, .i1⟩
  | .hbm, ⟨10, _⟩ => ⟨S_, .f32⟩
  | .hbm, ⟨11, _⟩ => ⟨S_, .f32⟩
  | .hbm, ⟨12, _⟩ => ⟨S32x3, .f32⟩
  | .hbm, ⟨13, _⟩ => ⟨S32x3, .f32⟩
  | .hbm, ⟨14, _⟩ => ⟨S_, .f32⟩
  | .hbm, ⟨15, _⟩ => ⟨S32x3, .f32⟩
  | .hbm, ⟨16, _⟩ => ⟨S32x3, .i1⟩
  | .hbm, ⟨17, _⟩ => ⟨S32x3, .f32⟩
  | .hbm, ⟨18, _⟩ => ⟨S_, .f32⟩
  | .hbm, ⟨19, _⟩ => ⟨S_, .f32⟩
  | .hbm, ⟨20, _⟩ => ⟨S32x3, .f32⟩
  | .hbm, ⟨21, _⟩ => ⟨S32x3, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .local _ .vmem, ⟨0, _⟩ => ⟨S8x3x64x512, .f32⟩
  | .local _ .vmem, ⟨1, _⟩ => ⟨S8x3x64x512, .f32⟩
  | .local _ .vmem, ⟨2, _⟩ => ⟨S8x3x64x512, .f32⟩
  | .local _ .vmem, ⟨3, _⟩ => ⟨S8x3x64x512, .f32⟩
  | .local _ .vmem, ⟨4, _⟩ => ⟨S8x3, .f32⟩
  | .local _ .vmem, ⟨5, _⟩ => ⟨S8x3, .f32⟩
  | .local _ .vmem, ⟨6, _⟩ => ⟨S8x3, .f32⟩
  | .local _ .vmem, ⟨7, _⟩ => ⟨S8x3, .f32⟩
  | .local _ .vmem, ⟨8, _⟩ => ⟨S8x3, .f32⟩
  | .local _ .vmem, ⟨9, _⟩ => ⟨S8x3, .f32⟩
  | _, _ => ⟨S32x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_call1_v0 : Ref sig .tc := ⟨.hbm, 19, rfl⟩
abbrev main_call1_v1 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_cst_4 : Ref sig .tc := ⟨.hbm, 24, rfl⟩
abbrev main_v11 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x3x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x3x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S8x3_S8x3_0_0 : ∀ a, (![0, 0] : Fin 2 → Nat) a + S8x3.size a ≤ S8x3.size a
  h_S8x3 : 0 < S8x3.numel
  inb_S8x3x64x512_S8x3x64x512_0_0_0_0 : ∀ a, (![0, 0, 0, 0] : Fin 4 → Nat) a + S8x3x64x512.size a ≤ S8x3x64x512.size a
  h_S8x3x64x512 : 0 < S8x3x64x512.numel
  natLt_1_32 : 1 < 32
  reduces_S8x3x64x512_S8x3x64 : S8x3x64x512.Reduces [3] S8x3x64
  reduces_S8x3x64_S8x3 : S8x3x64.Reduces [2] S8x3
  shapeCasts_S8x3_S8x3 : S8x3.ShapeCasts S8x3
  bcast_S_S32x3 : S_.BroadcastsInDim S32x3 (![] : Fin 0 → Fin S32x3.rank)
  reducesTo_S32x3_S_d0_1 : S32x3.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x3x64x512.size a ≤ S32x3x512x512.size a
  hwx0_0 : ∀ i : grid0.Coords, EltTy.bits .f32 = 32 ∨ (Rect.block (s := S32x3x512x512) S8x3x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x3x64x512.size a ≤ S32x3x512x512.size a
  hwx0_1 : ∀ i : grid0.Coords, EltTy.bits .f32 = 32 ∨ (Rect.block (s := S32x3x512x512) S8x3x64x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x3.size a ≤ S32x3.size a
  hwx0_2 : ∀ i : grid0.Coords, EltTy.bits .f32 = 32 ∨ (Rect.block (s := S32x3) S8x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x3.size a ≤ S32x3.size a
  hwx0_3 : ∀ i : grid0.Coords, EltTy.bits .f32 = 32 ∨ (Rect.block (s := S32x3) S8x3.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x3.size a ≤ S32x3.size a
  hwx0_4 : ∀ i : grid0.Coords, EltTy.bits .f32 = 32 ∨ (Rect.block (s := S32x3) S8x3.size (cc0_transform_4 i) (hinb0_4 i)).WholeWords (EltTy.packing .f32)

variable [Facts₀]

abbrev win0_0 : Pipeline.Window sig grid0 :=
  Pipeline.Window.ofSpec (Memref.whole main_arg0) S8x3x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x3x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S8x3.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S8x3.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S8x3.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x3x512x512 : Shape := ⟨4, ![32, 3, 512, 512]⟩
abbrev S_ : Shape := ⟨0, ![]⟩
abbrev S32x3 : Shape := ⟨2, ![32, 3]⟩

abbrev nBuf : Space → Nat
  | .hbm => 38
  | .vmem => 0
  | .smem => 0
  | _ => 0

abbrev bufTy : (tb : Table) → Fin (tcTables nBuf tb) → BufTy
  | .hbm, ⟨0, _⟩ => ⟨S32x3x512x512, .f32⟩
  | .hbm, ⟨1, _⟩ => ⟨S32x3x512x512, .f32⟩
  | .hbm, ⟨2, _⟩ => ⟨S_, .f32⟩
  | .hbm, ⟨3, _⟩ => ⟨S32x3x512x512, .f32⟩
  | .hbm, ⟨4, _⟩ => ⟨S32x3x512x512, .i1⟩
  | .hbm, ⟨5, _⟩ => ⟨S32x3x512x512, .f32⟩
  | .hbm, ⟨6, _⟩ => ⟨S_, .f32⟩
  | .hbm, ⟨7, _⟩ => ⟨S32x3x512x512, .f32⟩
  | .hbm, ⟨8, _⟩ => ⟨S32x3x512x512, .i1⟩
  | .hbm, ⟨9, _⟩ => ⟨S32x3x512x512, .f32⟩
  | .hbm, ⟨10, _⟩ => ⟨S32x3x512x512, .f32⟩
  | .hbm, ⟨11, _⟩ => ⟨S_, .f32⟩
  | .hbm, ⟨12, _⟩ => ⟨S32x3, .f32⟩
  | .hbm, ⟨13, _⟩ => ⟨S_, .f32⟩
  | .hbm, ⟨14, _⟩ => ⟨S32x3, .f32⟩
  | .hbm, ⟨15, _⟩ => ⟨S_, .f32⟩
  | .hbm, ⟨16, _⟩ => ⟨S32x3, .f32⟩
  | .hbm, ⟨17, _⟩ => ⟨S32x3, .f32⟩
  | .hbm, ⟨18, _⟩ => ⟨S32x3, .f32⟩
  | .hbm, ⟨19, _⟩ => ⟨S_, .f32⟩
  | .hbm, ⟨20, _⟩ => ⟨S32x3, .f32⟩
  | .hbm, ⟨21, _⟩ => ⟨S32x3, .i1⟩
  | .hbm, ⟨22, _⟩ => ⟨S_, .f32⟩
  | .hbm, ⟨23, _⟩ => ⟨S32x3, .f32⟩
  | .hbm, ⟨24, _⟩ => ⟨S32x3, .i1⟩
  | .hbm, ⟨25, _⟩ => ⟨S_, .f32⟩
  | .hbm, ⟨26, _⟩ => ⟨S_, .f32⟩
  | .hbm, ⟨27, _⟩ => ⟨S32x3, .f32⟩
  | .hbm, ⟨28, _⟩ => ⟨S32x3, .f32⟩
  | .hbm, ⟨29, _⟩ => ⟨S32x3, .f32⟩
  | .hbm, ⟨30, _⟩ => ⟨S_, .f32⟩
  | .hbm, ⟨31, _⟩ => ⟨S_, .f32⟩
  | .hbm, ⟨32, _⟩ => ⟨S32x3, .f32⟩
  | .hbm, ⟨33, _⟩ => ⟨S32x3, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | _, _ => ⟨S32x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_v13 : Ref sig .tc := ⟨.hbm, 21, rfl⟩
abbrev main_cst_5 : Ref sig .tc := ⟨.hbm, 22, rfl⟩
abbrev main_v14 : Ref sig .tc := ⟨.hbm, 23, rfl⟩
abbrev main_v15 : Ref sig .tc := ⟨.hbm, 24, rfl⟩
abbrev main_cst_6 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_v17 : Ref sig .tc := ⟨.hbm, 29, rfl⟩
abbrev main_cst_7 : Ref sig .tc := ⟨.hbm, 30, rfl⟩
abbrev main_call1_v0 : Ref sig .tc := ⟨.hbm, 31, rfl⟩
abbrev main_call1_v1 : Ref sig .tc := ⟨.hbm, 32, rfl⟩
abbrev main_v18 : Ref sig .tc := ⟨.hbm, 33, rfl⟩
abbrev main_cst_8 : Ref sig .tc := ⟨.hbm, 34, rfl⟩
abbrev main_v19 : Ref sig .tc := ⟨.hbm, 35, rfl⟩
abbrev main_cst_9 : Ref sig .tc := ⟨.hbm, 36, rfl⟩
abbrev main_v20 : Ref sig .tc := ⟨.hbm, 37, rfl⟩

abbrev nD : Nat := 1
abbrev τ : Topo := Topo.v7x

variable {F : FTy → Type} [FloatOps F]

class Facts₀ : Prop where
  bcast_S_S32x3x512x512 : S_.BroadcastsInDim S32x3x512x512 (![] : Fin 0 → Fin S32x3x512x512.rank)
  reducesTo_S32x3x512x512_S32x3_d2_3 : S32x3x512x512.ReducesTo [2, 3] S32x3
  h_S_ : 0 < S_.numel
  bcast_S_S32x3 : S_.BroadcastsInDim S32x3 (![] : Fin 0 → Fin S32x3.rank)
  reducesTo_S32x3_S_d0_1 : S32x3.ReducesTo [0, 1] S_

variable [Facts₀]

class Facts : Prop extends Facts₀ where

variable [Facts]
-- ==== Proof.KernelCases.lean ====
/-
  What one run of the kernel's body leaves in its three accumulators, as values.

  The body has two cases. At the first row tile of an image block (case A) it stores zeros in the three accumulators,
  reads them back and adds this tile's three sums; at every later row tile (case B) it adds the tile's sums to what the
  accumulators held. So each accumulator ends at `old + tile sum`, with `old` the zero block in case A: the payloads
  `k0_pay8` (marks' products), `k0_pay9` (first array's marks) and `k0_pay1 ∘ k0_pay7` (second array's marks) of the
  loaded blocks. Stated for any float values.
-/
import proofs.«118731_j25640954757369_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Cases

open Cert.KernelIdeal Cert.KernelIdeal.Gen

variable {F : FTy → Type} [FloatOps F]

theorem hz2 : (![0, 0] : Fin 2 → Nat) = fun _ => 0 := funext fun a => by fin_cases a <;> rfl
theorem hz4 : (![0, 0, 0, 0] : Fin 4 → Nat) = fun _ => 0 := funext fun a => by fin_cases a <;> rfl

/-! ## Case A: the first row tile — zero, then add -/

theorem caseA_2 (c : Dev nD) (i : grid0.Coords) (a2 : Memref sig .tc .vmem S8x3x64x512 .f32) (h2 : a2.IsWhole) (a3 : Memref sig .tc .vmem S8x3x64x512 .f32) (h3 : a3.IsWhole) (a4 : Memref sig .tc .vmem S8x3 .f32) (h4 : a4.IsWhole) (a5 : Memref sig .tc .vmem S8x3 .f32) (h5 : a5.IsWhole) (a6 : Memref sig .tc .vmem S8x3 .f32) (h6 : a6.IsWhole) (hc : cond0_0 i)
    (x0 x1 : Vec F S8x3x64x512 .f32) :
    out0_A_2 c i a2 h2 a3 h3 a4 h4 a5 h5 a6 h6 hc x0 x1 = k0_pay8 x0 x1 (k0_pay2 (F := F)) := by
  unfold out0_A_2
  rw [View.read_writes_eq_canon _ _ _ (cover0_A_2 c i a2 h2 a3 h3 a4 h4 a5 h5 a6 h6 hc x0 x1)]
  unfold kernelRun0_A
  dsimp only
  sl_unfold_words
  rw [View.canon_cons_unit_zero (S := S8x3) hz2, View.readCov_unit_zero (S := S8x3) _ hz2]
  simp only [View.readAt_eq_ld, h2.read_unread, h3.read_unread, View.ld_unit_zero (S := S8x3x64x512) hz4,
    View.ld_unit_zero (S := S8x3) hz2, View.readCov_unit_zero (S := S8x3) _ hz2]

theorem caseA_3 (c : Dev nD) (i : grid0.Coords) (a2 : Memref sig .tc .vmem S8x3x64x512 .f32) (h2 : a2.IsWhole) (a3 : Memref sig .tc .vmem S8x3x64x512 .f32) (h3 : a3.IsWhole) (a4 : Memref sig .tc .vmem S8x3 .f32) (h4 : a4.IsWhole) (a5 : Memref sig .tc .vmem S8x3 .f32) (h5 : a5.IsWhole) (a6 : Memref sig .tc .vmem S8x3 .f32) (h6 : a6.IsWhole) (hc : cond0_0 i)
    (x0 x1 : Vec F S8x3x64x512 .f32) :
    out0_A_3 c i a2 h2 a3 h3 a4 h4 a5 h5 a6 h6 hc x0 x1 = k0_pay9 x0 (k0_pay3 (F := F)) := by
  unfold out0_A_3
  rw [View.read_writes_eq_canon _ _ _ (cover0_A_3 c i a2 h2 a3 h3 a4 h4 a5 h5 a6 h6 hc x0 x1)]
  unfold kernelRun0_A
  dsimp only
  sl_unfold_words
  rw [View.canon_cons_unit_zero (S := S8x3) hz2, View.readCov_unit_zero (S := S8x3) _ hz2]
  simp only [View.readAt_eq_ld, h2.read_unread, h3.read_unread, View.ld_unit_zero (S := S8x3x64x512) hz4,
    View.ld_unit_zero (S := S8x3) hz2, View.readCov_unit_zero (S := S8x3) _ hz2]

theorem caseA_4 (c : Dev nD) (i : grid0.Coords) (a2 : Memref sig .tc .vmem S8x3x64x512 .f32) (h2 : a2.IsWhole) (a3 : Memref sig .tc .vmem S8x3x64x512 .f32) (h3 : a3.IsWhole) (a4 : Memref sig .tc .vmem S8x3 .f32) (h4 : a4.IsWhole) (a5 : Memref sig .tc .vmem S8x3 .f32) (h5 : a5.IsWhole) (a6 : Memref sig .tc .vmem S8x3 .f32) (h6 : a6.IsWhole) (hc : cond0_0 i)
    (x0 x1 : Vec F S8x3x64x512 .f32) :
    out0_A_4 c i a2 h2 a3 h3 a4 h4 a5 h5 a6 h6 hc x0 x1 = k0_pay1 (k0_pay7 x1) (k0_pay4 (F := F)) := by
  unfold out0_A_4
  rw [View.read_writes_eq_canon _ _ _ (cover0_A_4 c i a2 h2 a3 h3 a4 h4 a5 h5 a6 h6 hc x0 x1)]
  unfold kernelRun0_A
  dsimp only
  sl_unfold_words
  rw [View.canon_cons_unit_zero (S := S8x3) hz2, View.readCov_unit_zero (S := S8x3) _ hz2]
  simp only [View.readAt_eq_ld, h2.read_unread, h3.read_unread, View.ld_unit_zero (S := S8x3x64x512) hz4,
    View.ld_unit_zero (S := S8x3) hz2, View.readCov_unit_zero (S := S8x3) _ hz2]

/-! ## Case B: a later row tile — add to what was there -/

theorem caseB_2 (c : Dev nD) (i : grid0.Coords) (a2 : Memref sig .tc .vmem S8x3x64x512 .f32) (h2 : a2.IsWhole) (a3 : Memref sig .tc .vmem S8x3x64x512 .f32) (h3 : a3.IsWhole) (a4 : Memref sig .tc .vmem S8x3 .f32) (h4 : a4.IsWhole) (a5 : Memref sig .tc .vmem S8x3 .f32) (h5 : a5.IsWhole) (a6 : Memref sig .tc .vmem S8x3 .f32) (h6 : a6.IsWhole) (hc : ¬cond0_0 i)
    (x0 x1 : Vec F S8x3x64x512 .f32) (xo2 xo3 xo4 : Vec F S8x3 .f32) :
    out0_B_2 c i a2 h2 a3 h3 a4 h4 a5 h5 a6 h6 hc x0 x1 xo2 xo3 xo4 = k0_pay8 x0 x1 xo2 := by
  unfold out0_B_2
  rw [View.read_writes_eq_canon _ _ _ (cover0_B_2 c i a2 h2 a3 h3 a4 h4 a5 h5 a6 h6 hc x0 x1 xo2 xo3 xo4)]
  unfold kernelRun0_B
  dsimp only
  sl_unfold_words
  rw [View.canon_unit_zero hz2]
  simp only [View.readAt_eq_ld, h2.read_unread, h3.read_unread, h4.read_unread, h5.read_unread, h6.read_unread,
    View.ld_unit_zero (S := S8x3x64x512) hz4, View.ld_unit_zero (S := S8x3) hz2]

theorem caseB_3 (c : Dev nD) (i : grid0.Coords) (a2 : Memref sig .tc .vmem S8x3x64x512 .f32) (h2 : a2.IsWhole) (a3 : Memref sig .tc .vmem S8x3x64x512 .f32) (h3 : a3.IsWhole) (a4 : Memref sig .tc .vmem S8x3 .f32) (h4 : a4.IsWhole) (a5 : Memref sig .tc .vmem S8x3 .f32) (h5 : a5.IsWhole) (a6 : Memref sig .tc .vmem S8x3 .f32) (h6 : a6.IsWhole) (hc : ¬cond0_0 i)
    (x0 x1 : Vec F S8x3x64x512 .f32) (xo2 xo3 xo4 : Vec F S8x3 .f32) :
    out0_B_3 c i a2 h2 a3 h3 a4 h4 a5 h5 a6 h6 hc x0 x1 xo2 xo3 xo4 = k0_pay9 x0 xo3 := by
  unfold out0_B_3
  rw [View.read_writes_eq_canon _ _ _ (cover0_B_3 c i a2 h2 a3 h3 a4 h4 a5 h5 a6 h6 hc x0 x1 xo2 xo3 xo4)]
  unfold kernelRun0_B
  dsimp only
  sl_unfold_words
  rw [View.canon_unit_zero hz2]
  simp only [View.readAt_eq_ld, h2.read_unread, h3.read_unread, h4.read_unread, h5.read_unread, h6.read_unread,
    View.ld_unit_zero (S := S8x3x64x512) hz4, View.ld_unit_zero (S := S8x3) hz2]

theorem caseB_4 (c : Dev nD) (i : grid0.Coords) (a2 : Memref sig .tc .vmem S8x3x64x512 .f32) (h2 : a2.IsWhole) (a3 : Memref sig .tc .vmem S8x3x64x512 .f32) (h3 : a3.IsWhole) (a4 : Memref sig .tc .vmem S8x3 .f32) (h4 : a4.IsWhole) (a5 : Memref sig .tc .vmem S8x3 .f32) (h5 : a5.IsWhole) (a6 : Memref sig .tc .vmem S8x3 .f32) (h6 : a6.IsWhole) (hc : ¬cond0_0 i)
    (x0 x1 : Vec F S8x3x64x512 .f32) (xo2 xo3 xo4 : Vec F S8x3 .f32) :
    out0_B_4 c i a2 h2 a3 h3 a4 h4 a5 h5 a6 h6 hc x0 x1 xo2 xo3 xo4 = k0_pay1 (k0_pay7 x1) xo4 := by
  unfold out0_B_4
  rw [View.read_writes_eq_canon _ _ _ (cover0_B_4 c i a2 h2 a3 h3 a4 h4 a5 h5 a6 h6 hc x0 x1 xo2 xo3 xo4)]
  unfold kernelRun0_B
  dsimp only
  sl_unfold_words
  rw [View.canon_unit_zero hz2]
  simp only [View.readAt_eq_ld, h2.read_unread, h3.read_unread, h4.read_unread, h5.read_unread, h6.read_unread,
    View.ld_unit_zero (S := S8x3x64x512) hz4, View.ld_unit_zero (S := S8x3) hz2]

end Cert.KernelIdeal.Cases

end
-- ==== Proof.Jaccard.lean ====
/-
  The mathematics both programs compute, stated once over the extended reals.

  For an array `x` of shape [32, 3, 512, 512] let `mark x` be 1 where `x ≥ 1/2` and 0 elsewhere. Per image `b` and
  channel `c` three spatial sums are taken over the 512 × 512 positions: of `mark x · mark y` (the intersection), of
  `mark x` and of `mark y`. From them the union `u = a + b − i`, the ratio `i / u` where `u > 0` and `1` elsewhere,
  and the mean of the 96 ratios (`iouMean`).

  One side takes a spatial sum in one piece; the other splits the 512 rows into 8 tiles of 64 rows and adds the
  tiles' sums one after the other. `spatial_eq_range` says the two agree: a sum over 512 rows is the sum over the
  8 tiles of the sums over each tile's 64 rows (the rows re-indexed by `r = 64·s + h`). Sums in the extended reals
  are commutative and associative, so no finiteness is needed.
-/
import Idealize.ShloMosaic.PureOps.Ideal
import Idealize.ShloMosaic.PureOps.Ideal.Laws
import Idealize.ShloMosaic.Lib.ValueIdx

noncomputable section

open scoped BigOperators

namespace Cert.Jaccard

open Idealize.ShloMosaic Idealize.ShloMosaic.ValueIdx

/-- The arrays' shape, the per-(image, channel) shape, a block of 8 images by 64 rows, and its per-(image, channel) shape. -/
abbrev Arr : Shape := ⟨4, ![32, 3, 512, 512]⟩
abbrev BC : Shape := ⟨2, ![32, 3]⟩
abbrev Blk : Shape := ⟨4, ![8, 3, 64, 512]⟩
abbrev Tile : Shape := ⟨2, ![8, 3]⟩
abbrev Sc : Shape := ⟨0, ![]⟩

/-! ## The mark -/

/-- The threshold's comparison bit: 1 where `x ≥ 1/2`. -/
def bit (x : Ideal .f32) : BitVec 1 := FloatOps.cmpf (F := Ideal) (φ := .f32) .oge x (Ideal.ofBits .f32 0x3F000000#32)

/-- The mark: the comparison bit as a number, 0 or 1. -/
def mark (x : Ideal .f32) : EReal := (((bit x).toNat : ℝ) : EReal)

/-- A bit widened without sign to 32 bits and then read as a signed integer is the bit read as a natural number:
    both are 0 or 1. -/
theorem toInt_setWidth_bit (b : BitVec 1) : (b.setWidth 32).toInt = (b.toNat : ℤ) := by
  revert b; decide

/-- So converting the widened bit as a signed integer gives the mark. -/
theorem signed_widened_eq_mark (x : Ideal .f32) :
    ((((bit x).setWidth 32).toInt : ℝ) : EReal) = mark x := by
  unfold mark
  rw [toInt_setWidth_bit]
  norm_cast

/-! ## Spatial sums, whole and by tiles of 64 rows -/

/-- The sum of `f` over the 512 × 512 positions of image `b`, channel `c`. -/
def spatial (f : Arr.Idx → EReal) (b : Fin 32) (c : Fin 3) : EReal :=
  ∑ r : Fin 512, ∑ w : Fin 512, f (ix4 b c r w)

/-- Row `h` of tile `s`: row `64·s + h` of the image. -/
def row (s : Fin 8) (h : Fin 64) : Fin 512 := ⟨64 * s.val + h.val, by have := s.isLt; have := h.isLt; omega⟩

/-- The sum of `f` over the 64 rows of tile `s`. -/
def tileSum (f : Arr.Idx → EReal) (b : Fin 32) (c : Fin 3) (s : Fin 8) : EReal :=
  ∑ h : Fin 64, ∑ w : Fin 512, f (ix4 b c (row s h) w)

/-- The same with the tile named by a natural number (zero past the eighth tile), so that running sums are sums over
    `Finset.range`. -/
def tileSumN (f : Arr.Idx → EReal) (b : Fin 32) (c : Fin 3) (s : ℕ) : EReal :=
  if h : s < 8 then tileSum f b c ⟨s, h⟩ else 0

theorem tileSumN_of_lt (f : Arr.Idx → EReal) (b : Fin 32) (c : Fin 3) (s : ℕ) (h : s < 8) :
    tileSumN f b c s = tileSum f b c ⟨s, h⟩ := dif_pos h

/-- The 512 rows are the 8 tiles' 64 rows: `(s, h) ↦ 64·s + h` is a bijection. -/
def rowEquiv : Fin 8 × Fin 64 ≃ Fin 512 where
  toFun p := row p.1 p.2
  invFun r := (⟨r.val / 64, by have := r.isLt; omega⟩, ⟨r.val % 64, by omega⟩)
  left_inv p := by
    obtain ⟨s, h⟩ := p
    have := s.isLt; have := h.isLt
    apply Prod.ext <;> apply Fin.ext <;> simp only [row] <;> omega
  right_inv r := by
    apply Fin.ext; simp only [row]; omega

/-- A spatial sum is the sum of its 8 tile sums. -/
theorem spatial_eq_tiles (f : Arr.Idx → EReal) (b : Fin 32) (c : Fin 3) :
    spatial f b c = ∑ s : Fin 8, tileSum f b c s := by
  unfold spatial tileSum
  rw [← Equiv.sum_comp rowEquiv (fun r : Fin 512 => ∑ w : Fin 512, f (ix4 b c r w)), Fintype.sum_prod_type]
  rfl

/-- The same as a sum over the first eight naturals. -/
theorem spatial_eq_range (f : Arr.Idx → EReal) (b : Fin 32) (c : Fin 3) :
    spatial f b c = ∑ s ∈ Finset.range 8, tileSumN f b c s := by
  rw [spatial_eq_tiles, ← Fin.sum_univ_eq_sum_range (fun s => tileSumN f b c s) 8]
  exact Finset.sum_congr rfl fun s _ => (tileSumN_of_lt f b c s.val s.isLt).symm

/-! ## Running sums along the grid

The grid has 32 points; point `n` handles images `8·(n / 8) … 8·(n / 8) + 7` and row tile `n % 8`. The running sum
after point `n` is the sum of the tiles `0 … n % 8` of the image: it starts afresh where `n % 8 = 0`, grows by one
tile at every other point, and is the whole spatial sum where `n % 8 = 7`. -/

/-- The image that row `b'` of the block at grid point `n` belongs to. -/
def img (n : ℕ) (hn : n < 32) (b' : Fin 8) : Fin 32 := ⟨8 * (n / 8) + b'.val, by have := b'.isLt; omega⟩

/-- The row tile grid point `n` handles. -/
def tileOf (n : ℕ) : Fin 8 := ⟨n % 8, Nat.mod_lt _ (by decide)⟩

/-- The running sum after grid point `n`: tiles `0 … n % 8`. -/
def partialSum (f : Arr.Idx → EReal) (n : ℕ) (hn : n < 32) (b' : Fin 8) (c : Fin 3) : EReal :=
  ∑ s ∈ Finset.range (n % 8 + 1), tileSumN f (img n hn b') c s

/-- At the first tile the running sum is zero plus that tile. -/
theorem partialSum_first (f : Arr.Idx → EReal) (n : ℕ) (hn : n < 32) (b' : Fin 8) (c : Fin 3) (h0 : n % 8 = 0) :
    partialSum f n hn b' c = 0 + tileSum f (img n hn b') c (tileOf n) := by
  unfold partialSum
  rw [h0, Finset.sum_range_one, zero_add, tileSumN_of_lt f _ c 0 (by decide)]
  exact congrArg (tileSum f (img n hn b') c) (Fin.ext h0.symm)

/-- At a later tile it is the running sum after the point before plus this tile. -/
theorem partialSum_step (f : Arr.Idx → EReal) (n : ℕ) (hn : n < 32) (b' : Fin 8) (c : Fin 3) (h0 : ¬n % 8 = 0) :
    partialSum f n hn b' c
      = partialSum f (n - 1) (Nat.lt_of_le_of_lt (Nat.sub_le _ _) hn) b' c + tileSum f (img n hn b') c (tileOf n) := by
  unfold partialSum
  have e1 : n % 8 + 1 = ((n - 1) % 8 + 1) + 1 := by omega
  have e2 : img (n - 1) (Nat.lt_of_le_of_lt (Nat.sub_le _ _) hn) b' = img n hn b' :=
    Fin.ext (by simp only [img]; omega)
  rw [e1, Finset.sum_range_succ, e2, tileSumN_of_lt f _ c ((n - 1) % 8 + 1) (by omega)]
  exact congrArg (fun s => _ + tileSum f (img n hn b') c s) (Fin.ext (by simp only [tileOf]; omega))

/-- At the last tile it is the whole spatial sum. -/
theorem partialSum_last (f : Arr.Idx → EReal) (n : ℕ) (hn : n < 32) (b' : Fin 8) (c : Fin 3) (h7 : n % 8 = 7) :
    partialSum f n hn b' c = spatial f (img n hn b') c := by
  unfold partialSum
  rw [h7, spatial_eq_range]

/-! ## A sum over the positions that drop to one (image, channel) -/

/-- If `drop` sends a position (b, c, r, w) to (b, c), the sum of `x` over the positions that drop to `j` is the
    spatial sum of `x` at `j`'s image and channel. -/
theorem sum_fiber (drop : Arr.Idx → BC.Idx) (hdrop : ∀ i : Arr.Idx, drop i = ix2 (i 0) (i 1))
    (x : Arr.Idx → EReal) (j : BC.Idx) :
    ∑ i ∈ Finset.univ.filter (fun i => drop i = j), x i = spatial x (j 0) (j 1) := by
  classical
  let e : Fin 512 × Fin 512 ↪ Arr.Idx :=
    ⟨fun p => ix4 (j 0) (j 1) p.1 p.2, fun p q h => Prod.ext (congrFun h 2) (congrFun h 3)⟩
  have hset : Finset.univ.filter (fun i => drop i = j) = Finset.univ.map e := by
    ext i
    simp only [Finset.mem_filter, Finset.mem_univ, true_and, Finset.mem_map]
    constructor
    · intro h
      rw [hdrop] at h
      refine ⟨(i 2, i 3), ?_⟩
      show ix4 (j 0) (j 1) (i 2) (i 3) = i
      rw [← h]
      exact (eq_ix4 i).symm
    · rintro ⟨p, rfl⟩
      rw [hdrop]
      exact (eq_ix2 j).symm
  rw [hset, Finset.sum_map]
  unfold spatial
  rw [← Fintype.sum_prod_type (f := fun p : Fin 512 × Fin 512 => x (ix4 (j 0) (j 1) p.1 p.2))]
  rfl

/-! ## The tail: union, ratio, mean -/

section Tail

variable {F : FTy → Type} [FloatOps F]

/-- From the three per-(image, channel) sums `i`, `a`, `b`: the union `u = a + b − i`; the ratio `i / u` where
    `u > 0` (the divisor replaced by 1 elsewhere, and the ratio then by 1); the sum of the 96 ratios divided by 96. -/
def iouMean (hb : Sc.BroadcastsInDim BC (![] : Fin 0 → Fin BC.rank)) (hr : BC.ReducesTo [0, 1] Sc) (h0 : 0 < Sc.numel)
    (i a b : FVec F BC .f32) : FVec F Sc .f32 :=
  Host.divf
    (Host.reduceAdd
      (select (cmpf .ogt (subf (addf a b) i) (broadcastInDim BC ![] hb (constant Sc .f32 0x00000000#32)))
        (Host.divf i
          (select (cmpf .ogt (subf (addf a b) i) (broadcastInDim BC ![] hb (constant Sc .f32 0x00000000#32)))
            (subf (addf a b) i) (broadcastInDim BC ![] hb (id (constant Sc .f32 0x3F800000#32)))))
        (broadcastInDim BC ![] hb (id (constant Sc .f32 0x3F800000#32))))
      (constant Sc .f32 0x00000000#32) hr h0)
    (constant Sc .f32 0x42C00000#32)

end Tail

/-! ## The result -/

theorem bcastBC : Sc.BroadcastsInDim BC (![] : Fin 0 → Fin BC.rank) := by decide
theorem reduceBC : BC.ReducesTo [0, 1] Sc := by decide
theorem scPos : 0 < Sc.numel := by decide

/-- Per (image, channel): how many positions both arrays mark. -/
def inter (x y : FVec Ideal Arr .f32) : FVec Ideal BC .f32 :=
  fun j => spatial (fun i => mark (x i) * mark (y i)) (j 0) (j 1)

/-- Per (image, channel): how many positions the array marks. -/
def count (x : FVec Ideal Arr .f32) : FVec Ideal BC .f32 :=
  fun j => spatial (fun i => mark (x i)) (j 0) (j 1)

/-- The mean over the 96 (image, channel) pairs of intersection over union, from the two arrays. -/
def result (x y : FVec Ideal Arr .f32) : FVec Ideal Sc .f32 :=
  iouMean (F := Ideal) bcastBC reduceBC scPos (inter x y) (count x) (count y)

end Cert.Jaccard

end
-- ==== Proof.KernelPayload.lean ====
/-
  The body's arithmetic at one (image, channel) entry, over the extended reals.

  A block holds 8 images × 3 channels × 64 rows × 512 columns. The body marks each entry (`x ≥ 1/2` as 0 or 1: the
  comparison bit widened to 32 bits and converted as a signed integer, which is the bit itself), sums over the columns
  and then over the rows, and adds the sum to the accumulator's entry. So at image `b`, channel `c` of the block each
  accumulator's new entry is its old entry plus the sum over the block's 64 rows and 512 columns of the marks'
  product, of the first array's marks, or of the second array's marks.
-/
import proofs.«118731_j25640954757369_1_alg».proof.Proof.Gen.KernelIdeal.Skeleton
import proofs.«118731_j25640954757369_1_alg».proof.Proof.Jaccard
import Idealize.ShloMosaic.PureOps.Ideal.Laws
import Idealize.ShloMosaic.Lib.ValueIdx
import Idealize.ShloMosaic.Lib.Pipeline.Value

noncomputable section

open scoped BigOperators
open Idealize.ShloMosaic Idealize.ShloMosaic.TcCoe Idealize.SL.Sem Idealize.ShloMosaic.ValueIdx

namespace Cert.KernelIdeal.Payload

open Cert.KernelIdeal Cert.KernelIdeal.Gen Cert.Jaccard

/-- A sum over the rows of an [8, 3, 64] vector, at (b, c). -/
theorem rows_apply (v : FVec Ideal S8x3x64 .f32) (h : S8x3x64.Reduces [2] S8x3) (hφ : FKind.Formats .f32)
    (hacc : (0x00000000#32 : BitVec 32) = FKind.add.neutral .f32 hφ) (b : Fin 8) (c : Fin 3) :
    multiReduction .add [2] S8x3 v 0x00000000#32 h hφ hacc (ix2 b c) = ∑ k : Fin 64, v (ix3 b c k) := by
  refine (Ideal.multiReduction_add_single v _ h hφ hacc (ix2 b c)).trans ?_
  refine Finset.sum_congr rfl fun k _ => congrArg v ?_
  funext a
  apply Fin.ext
  match a with
  | ⟨0, _⟩ => rfl
  | ⟨1, _⟩ => rfl
  | ⟨2, _⟩ => rfl

/-- A sum over the columns of a block, at (b, c, k). -/
theorem cols_apply (v : FVec Ideal S8x3x64x512 .f32) (h : S8x3x64x512.Reduces [3] S8x3x64) (hφ : FKind.Formats .f32)
    (hacc : (0x00000000#32 : BitVec 32) = FKind.add.neutral .f32 hφ) (b : Fin 8) (c : Fin 3) (k : Fin 64) :
    multiReduction .add [3] S8x3x64 v 0x00000000#32 h hφ hacc (ix3 b c k) = ∑ w : Fin 512, v (ix4 b c k w) := by
  refine (Ideal.multiReduction_add_single v _ h hφ hacc (ix3 b c k)).trans ?_
  refine Finset.sum_congr rfl fun w _ => congrArg v ?_
  funext a
  apply Fin.ext
  match a with
  | ⟨0, _⟩ => rfl
  | ⟨1, _⟩ => rfl
  | ⟨2, _⟩ => rfl
  | ⟨3, _⟩ => rfl

/-- The two sums together: over the rows and columns of the block, at (b, c). -/
theorem block_sum_apply (v : FVec Ideal S8x3x64x512 .f32) (h3 : S8x3x64x512.Reduces [3] S8x3x64) (h2 : S8x3x64.Reduces [2] S8x3)
    (hφ : FKind.Formats .f32) (hacc : (0x00000000#32 : BitVec 32) = FKind.add.neutral .f32 hφ) (b : Fin 8) (c : Fin 3) :
    multiReduction .add [2] S8x3 (multiReduction .add [3] S8x3x64 v 0x00000000#32 h3 hφ hacc) 0x00000000#32 h2 hφ hacc (ix2 b c)
      = ∑ k : Fin 64, ∑ w : Fin 512, v (ix4 b c k w) :=
  (rows_apply _ h2 hφ hacc b c).trans (Finset.sum_congr rfl fun k _ => cols_apply v h3 hφ hacc b c k)

/-- The body's mark of the first block's entry is the mark. -/
theorem pay5_apply (x0 : Vec Ideal S8x3x64x512 .f32) (i : S8x3x64x512.Idx) : k0_pay5 x0 i = mark (x0 i) :=
  signed_widened_eq_mark (x0 i)

/-- The body's mark of the second block's entry is the mark. -/
theorem pay6_apply (x1 : Vec Ideal S8x3x64x512 .f32) (i : S8x3x64x512.Idx) : k0_pay6 x1 i = mark (x1 i) :=
  signed_widened_eq_mark (x1 i)

/-- The zero blocks the first row tile stores. -/
theorem pay2_apply (i : S8x3.Idx) : k0_pay2 (F := Ideal) i = 0 := Ideal.ofBits_zero_f32
theorem pay3_apply (i : S8x3.Idx) : k0_pay3 (F := Ideal) i = 0 := Ideal.ofBits_zero_f32
theorem pay4_apply (i : S8x3.Idx) : k0_pay4 (F := Ideal) i = 0 := Ideal.ofBits_zero_f32

/-- The intersection accumulator: old entry plus the block's sum of the marks' products. -/
theorem pay8_apply (x0 x1 : Vec Ideal S8x3x64x512 .f32) (v : Vec Ideal S8x3 .f32) (b : Fin 8) (c : Fin 3) :
    k0_pay8 x0 x1 v (ix2 b c)
      = v (ix2 b c) + ∑ k : Fin 64, ∑ w : Fin 512, mark (x0 (ix4 b c k w)) * mark (x1 (ix4 b c k w)) := by
  unfold k0_pay8
  show _ + _ = _
  refine congrArg₂ (fun p q : EReal => p + q) ?_ ?_
  · exact congrFun (shapeCast_self _ _) _
  · refine (block_sum_apply _ _ _ _ _ b c).trans ?_
    exact Finset.sum_congr rfl fun k _ => Finset.sum_congr rfl fun w _ =>
      congrArg₂ (fun p q : EReal => p * q) (pay5_apply x0 _) (pay6_apply x1 _)

/-- The first array's count accumulator: old entry plus the block's sum of its marks. -/
theorem pay9_apply (x0 : Vec Ideal S8x3x64x512 .f32) (v : Vec Ideal S8x3 .f32) (b : Fin 8) (c : Fin 3) :
    k0_pay9 x0 v (ix2 b c) = v (ix2 b c) + ∑ k : Fin 64, ∑ w : Fin 512, mark (x0 (ix4 b c k w)) := by
  unfold k0_pay9
  show _ + _ = _
  refine congrArg₂ (fun p q : EReal => p + q) ?_ ?_
  · exact congrFun (shapeCast_self _ _) _
  · refine (block_sum_apply _ _ _ _ _ b c).trans ?_
    exact Finset.sum_congr rfl fun k _ => Finset.sum_congr rfl fun w _ => pay5_apply x0 _

/-- The second array's count accumulator: old entry plus the block's sum of its marks. -/
theorem pay1_apply (x1 : Vec Ideal S8x3x64x512 .f32) (v : Vec Ideal S8x3 .f32) (b : Fin 8) (c : Fin 3) :
    k0_pay1 (k0_pay7 x1) v (ix2 b c) = v (ix2 b c) + ∑ k : Fin 64, ∑ w : Fin 512, mark (x1 (ix4 b c k w)) := by
  unfold k0_pay1 k0_pay7
  show _ + _ = _
  refine congrArg₂ (fun p q : EReal => p + q) ?_ ?_
  · exact congrFun (shapeCast_self _ _) _
  · refine (block_sum_apply _ _ _ _ _ b c).trans ?_
    exact Finset.sum_congr rfl fun k _ => Finset.sum_congr rfl fun w _ => pay6_apply x1 _

end Cert.KernelIdeal.Payload

end
-- ==== Proof.KernelBlocks.lean ====
/-
  The blocks the idealized kernel stages, and one grid point's step.

  The grid has 4 × 8 points; point `t` stages images `8·(t / 8) … + 7`, all channels, rows `64·(t % 8) … + 63`, all
  columns of both arguments (`xblk_apply`, `yblk_apply`: a block's entry is the array's entry at those coordinates).
  So one run of the body adds to each accumulator entry the sum of its summand over row tile `t % 8` of that image
  and channel (`stepI`, `stepA`, `stepB`).
-/
import proofs.«118731_j25640954757369_1_alg».proof.Proof.Gen.KernelIdeal.Frame
import proofs.«118731_j25640954757369_1_alg».proof.Proof.KernelPayload
import proofs.«118731_j25640954757369_1_alg».proof.Proof.Jaccard
import Idealize.ShloMosaic.Lib.Pipeline.Value
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.RunValue

open Cert.KernelIdeal Cert.KernelIdeal.Gen Cert.KernelIdeal.Payload Cert.Jaccard

variable (m : (ℓ : Loc nD τ sig) → Buf (Elt Ideal) ℓ) (ρ : Dev nD → PrngReg)

/-- A grid point's number is below 32. -/
theorem lt32 (t : Fin cfg0.N) : t.val < 32 := lt_of_lt_of_eq t.isLt (show cfg0.N = 32 from N_0)

/-- The two argument arrays on core `c`. -/
abbrev xa (c : Dev nD) : FVec Ideal Arr .f32 := m ((c : Thread nD τ).loc main_arg0)
abbrev xb (c : Dev nD) : FVec Ideal Arr .f32 := m ((c : Thread nD τ).loc main_arg1)

/-- The blocks of the two arguments that point `t` stages. -/
abbrev xblk (c : Dev nD) (t : Fin cfg0.N) : Vec Ideal S8x3x64x512 .f32 := iblk m c 0 t
abbrev yblk (c : Dev nD) (t : Fin cfg0.N) : Vec Ideal S8x3x64x512 .f32 := iblk m c 1 t

/-- The three summands, position by position: the marks' product and the two marks. -/
abbrev fI (c : Dev nD) : Arr.Idx → EReal := fun i => mark (xa m c i) * mark (xb m c i)
abbrev fA (c : Dev nD) : Arr.Idx → EReal := fun i => mark (xa m c i)
abbrev fB (c : Dev nD) : Arr.Idx → EReal := fun i => mark (xb m c i)

/-- The printed index maps, decided over the grid: the input windows' block is (t / 8, 0, t % 8, 0), the output
    windows' (t / 8, 0). -/
theorem idx_facts : ∀ t : Fin cfg0.N,
    win0_0.index t (0 : Fin 4) = t.val / 8 ∧ win0_0.index t (1 : Fin 4) = 0 ∧ win0_0.index t (2 : Fin 4) = t.val % 8 ∧ win0_0.index t (3 : Fin 4) = 0
    ∧ win0_1.index t (0 : Fin 4) = t.val / 8 ∧ win0_1.index t (1 : Fin 4) = 0 ∧ win0_1.index t (2 : Fin 4) = t.val % 8 ∧ win0_1.index t (3 : Fin 4) = 0
    ∧ win0_2.index t (0 : Fin 2) = t.val / 8 ∧ win0_2.index t (1 : Fin 2) = 0
    ∧ win0_3.index t (0 : Fin 2) = t.val / 8 ∧ win0_3.index t (1 : Fin 2) = 0
    ∧ win0_4.index t (0 : Fin 2) = t.val / 8 ∧ win0_4.index t (1 : Fin 2) = 0 :=
  (by decide +kernel : ∀ t : Fin grid0.N, _)

/-! ## A staged block's entry is the array's -/

theorem xblk_apply (c : Dev nD) (t : Fin cfg0.N) (b' : Fin 8) (c' : Fin 3) (k : Fin 64) (w : Fin 512) :
    xblk m c t (ix4 b' c' k w) = xa m c (ix4 (img t.val (lt32 t) b') c' (row (tileOf t.val) k) w) := by
  obtain ⟨e0, e1, e2, e3, -⟩ := idx_facts t
  show iblk m c 0 t (ix4 b' c' k w) = _
  unfold iblk
  rw [View.read_apply]
  show m ((c : Thread nD τ).loc main_arg0) _ = m ((c : Thread nD τ).loc main_arg0) _
  refine congrArg _ ?_
  funext a
  apply Fin.ext
  match a with
  | ⟨0, _⟩ => show win0_0.index t (0 : Fin 4) * 8 + 1 * b'.val = 8 * (t.val / 8) + b'.val; rw [e0]; omega
  | ⟨1, _⟩ => show win0_0.index t (1 : Fin 4) * 3 + 1 * c'.val = c'.val; rw [e1]; omega
  | ⟨2, _⟩ => show win0_0.index t (2 : Fin 4) * 64 + 1 * k.val = 64 * (t.val % 8) + k.val; rw [e2]; omega
  | ⟨3, _⟩ => show win0_0.index t (3 : Fin 4) * 512 + 1 * w.val = w.val; rw [e3]; omega

theorem yblk_apply (c : Dev nD) (t : Fin cfg0.N) (b' : Fin 8) (c' : Fin 3) (k : Fin 64) (w : Fin 512) :
    yblk m c t (ix4 b' c' k w) = xb m c (ix4 (img t.val (lt32 t) b') c' (row (tileOf t.val) k) w) := by
  obtain ⟨-, -, -, -, e0, e1, e2, e3, -⟩ := idx_facts t
  show iblk m c 1 t (ix4 b' c' k w) = _
  unfold iblk
  rw [View.read_apply]
  show m ((c : Thread nD τ).loc main_arg1) _ = m ((c : Thread nD τ).loc main_arg1) _
  refine congrArg _ ?_
  funext a
  apply Fin.ext
  match a with
  | ⟨0, _⟩ => show win0_1.index t (0 : Fin 4) * 8 + 1 * b'.val = 8 * (t.val / 8) + b'.val; rw [e0]; omega
  | ⟨1, _⟩ => show win0_1.index t (1 : Fin 4) * 3 + 1 * c'.val = c'.val; rw [e1]; omega
  | ⟨2, _⟩ => show win0_1.index t (2 : Fin 4) * 64 + 1 * k.val = 64 * (t.val % 8) + k.val; rw [e2]; omega
  | ⟨3, _⟩ => show win0_1.index t (3 : Fin 4) * 512 + 1 * w.val = w.val; rw [e3]; omega

/-! ## One point's step, entry by entry: old entry plus this point's tile sum -/

theorem stepI (c : Dev nD) (t : Fin cfg0.N) (v : Vec Ideal S8x3 .f32) (b' : Fin 8) (c' : Fin 3) :
    k0_pay8 (xblk m c t) (yblk m c t) v (ix2 b' c')
      = v (ix2 b' c') + tileSum (fI m c) (img t.val (lt32 t) b') c' (tileOf t.val) := by
  rw [pay8_apply]
  refine congrArg (fun s => v (ix2 b' c') + s) ?_
  exact Finset.sum_congr rfl fun k _ => Finset.sum_congr rfl fun w _ => by rw [xblk_apply, yblk_apply]

theorem stepA (c : Dev nD) (t : Fin cfg0.N) (v : Vec Ideal S8x3 .f32) (b' : Fin 8) (c' : Fin 3) :
    k0_pay9 (xblk m c t) v (ix2 b' c')
      = v (ix2 b' c') + tileSum (fA m c) (img t.val (lt32 t) b') c' (tileOf t.val) := by
  rw [pay9_apply]
  refine congrArg (fun s => v (ix2 b' c') + s) ?_
  exact Finset.sum_congr rfl fun k _ => Finset.sum_congr rfl fun w _ => by rw [xblk_apply]

theorem stepB (c : Dev nD) (t : Fin cfg0.N) (v : Vec Ideal S8x3 .f32) (b' : Fin 8) (c' : Fin 3) :
    k0_pay1 (k0_pay7 (yblk m c t)) v (ix2 b' c')
      = v (ix2 b' c') + tileSum (fB m c) (img t.val (lt32 t) b') c' (tileOf t.val) := by
  rw [pay1_apply]
  refine congrArg (fun s => v (ix2 b' c') + s) ?_
  exact Finset.sum_congr rfl fun k _ => Finset.sum_congr rfl fun w _ => by rw [yblk_apply]

end Cert.KernelIdeal.RunValue

end
-- ==== Proof.KernelAcc.lean ====
/-
  The idealized kernel's accumulators after each grid point are the running sums.

  After point `t` each of the three accumulator blocks holds, at image `b'` of the block and channel `c'`, the sum of
  its summand over the row tiles `0 … t % 8` of that image: where `t % 8 = 0` the body starts from zero and adds the
  first tile; elsewhere it adds tile `t % 8` to what the point before left. By induction on the point.
-/
import proofs.«118731_j25640954757369_1_alg».proof.Proof.KernelCases
import proofs.«118731_j25640954757369_1_alg».proof.Proof.KernelBlocks

noncomputable section

open scoped BigOperators
open Idealize.ShloMosaic Idealize.ShloMosaic.TcCoe Idealize.SL.Sem Idealize.ShloMosaic.ValueIdx
open Idealize.ShloMosaic.Pipeline (Dat)

namespace Cert.KernelIdeal.RunValue

open Cert.KernelIdeal Cert.KernelIdeal.Gen Cert.KernelIdeal.Cases Cert.KernelIdeal.Payload Cert.Jaccard

variable (m : (ℓ : Loc nD τ sig) → Buf (Elt Ideal) ℓ)

/-- The running sums after point `n`, as a block. -/
abbrev part (f : Arr.Idx → EReal) (n : ℕ) (hn : n < cfg0.N) : Vec Ideal S8x3 .f32 :=
  fun q => partialSum f n (lt32 ⟨n, hn⟩) (q 0) (q 1)

/-! ## The first row tile: from zero -/

theorem firstI (c : Dev nD) (t : Fin cfg0.N) (h0 : t.val % 8 = 0) (hc : cond0_0 (grid0.coords t)) :
    out0_A_2 c (grid0.coords t) (ms0_0 t) (hs0_0 t) (ms0_1 t) (hs0_1 t) (ms0_2 t) (hs0_2 t) (ms0_3 t) (hs0_3 t) (ms0_4 t) (hs0_4 t) hc (iblk m c 0 t) (iblk m c 1 t) = part (fI m c) t.val t.isLt := by
  refine (caseA_2 c (grid0.coords t) (ms0_0 t) (hs0_0 t) (ms0_1 t) (hs0_1 t) (ms0_2 t) (hs0_2 t) (ms0_3 t) (hs0_3 t) (ms0_4 t) (hs0_4 t) hc (iblk m c 0 t) (iblk m c 1 t)).trans ?_
  funext q
  obtain ⟨b', c', rfl⟩ : ∃ (b' : Fin 8) (c' : Fin 3), q = ix2 b' c' := ⟨q 0, q 1, eq_ix2 q⟩
  refine (stepI m c t _ b' c').trans ?_
  rw [pay2_apply]
  exact (partialSum_first (fI m c) t.val (lt32 t) b' c' h0).symm

theorem firstA (c : Dev nD) (t : Fin cfg0.N) (h0 : t.val % 8 = 0) (hc : cond0_0 (grid0.coords t)) :
    out0_A_3 c (grid0.coords t) (ms0_0 t) (hs0_0 t) (ms0_1 t) (hs0_1 t) (ms0_2 t) (hs0_2 t) (ms0_3 t) (hs0_3 t) (ms0_4 t) (hs0_4 t) hc (iblk m c 0 t) (iblk m c 1 t) = part (fA m c) t.val t.isLt := by
  refine (caseA_3 c (grid0.coords t) (ms0_0 t) (hs0_0 t) (ms0_1 t) (hs0_1 t) (ms0_2 t) (hs0_2 t) (ms0_3 t) (hs0_3 t) (ms0_4 t) (hs0_4 t) hc (iblk m c 0 t) (iblk m c 1 t)).trans ?_
  funext q
  obtain ⟨b', c', rfl⟩ : ∃ (b' : Fin 8) (c' : Fin 3), q = ix2 b' c' := ⟨q 0, q 1, eq_ix2 q⟩
  refine (stepA m c t _ b' c').trans ?_
  rw [pay3_apply]
  exact (partialSum_first (fA m c) t.val (lt32 t) b' c' h0).symm

theorem firstB (c : Dev nD) (t : Fin cfg0.N) (h0 : t.val % 8 = 0) (hc : cond0_0 (grid0.coords t)) :
    out0_A_4 c (grid0.coords t) (ms0_0 t) (hs0_0 t) (ms0_1 t) (hs0_1 t) (ms0_2 t) (hs0_2 t) (ms0_3 t) (hs0_3 t) (ms0_4 t) (hs0_4 t) hc (iblk m c 0 t) (iblk m c 1 t) = part (fB m c) t.val t.isLt := by
  refine (caseA_4 c (grid0.coords t) (ms0_0 t) (hs0_0 t) (ms0_1 t) (hs0_1 t) (ms0_2 t) (hs0_2 t) (ms0_3 t) (hs0_3 t) (ms0_4 t) (hs0_4 t) hc (iblk m c 0 t) (iblk m c 1 t)).trans ?_
  funext q
  obtain ⟨b', c', rfl⟩ : ∃ (b' : Fin 8) (c' : Fin 3), q = ix2 b' c' := ⟨q 0, q 1, eq_ix2 q⟩
  refine (stepB m c t _ b' c').trans ?_
  rw [pay4_apply]
  exact (partialSum_first (fB m c) t.val (lt32 t) b' c' h0).symm

/-! ## A later row tile: added to what the point before left -/

theorem laterI (c : Dev nD) (t : Fin cfg0.N) (h0 : ¬t.val % 8 = 0) (hc : ¬cond0_0 (grid0.coords t))
    (xo2 xo3 xo4 : Vec Ideal S8x3 .f32)
    (hprev : xo2 = part (fI m c) (t.val - 1) (Nat.lt_of_le_of_lt (Nat.sub_le _ _) t.isLt)) :
    out0_B_2 c (grid0.coords t) (ms0_0 t) (hs0_0 t) (ms0_1 t) (hs0_1 t) (ms0_2 t) (hs0_2 t) (ms0_3 t) (hs0_3 t) (ms0_4 t) (hs0_4 t) hc (iblk m c 0 t) (iblk m c 1 t) xo2 xo3 xo4 = part (fI m c) t.val t.isLt := by
  refine (caseB_2 c (grid0.coords t) (ms0_0 t) (hs0_0 t) (ms0_1 t) (hs0_1 t) (ms0_2 t) (hs0_2 t) (ms0_3 t) (hs0_3 t) (ms0_4 t) (hs0_4 t) hc (iblk m c 0 t) (iblk m c 1 t) xo2 xo3 xo4).trans ?_
  funext q
  obtain ⟨b', c', rfl⟩ : ∃ (b' : Fin 8) (c' : Fin 3), q = ix2 b' c' := ⟨q 0, q 1, eq_ix2 q⟩
  refine (stepI m c t _ b' c').trans ?_
  rw [hprev]
  exact (partialSum_step (fI m c) t.val (lt32 t) b' c' h0).symm

theorem laterA (c : Dev nD) (t : Fin cfg0.N) (h0 : ¬t.val % 8 = 0) (hc : ¬cond0_0 (grid0.coords t))
    (xo2 xo3 xo4 : Vec Ideal S8x3 .f32)
    (hprev : xo3 = part (fA m c) (t.val - 1) (Nat.lt_of_le_of_lt (Nat.sub_le _ _) t.isLt)) :
    out0_B_3 c (grid0.coords t) (ms0_0 t) (hs0_0 t) (ms0_1 t) (hs0_1 t) (ms0_2 t) (hs0_2 t) (ms0_3 t) (hs0_3 t) (ms0_4 t) (hs0_4 t) hc (iblk m c 0 t) (iblk m c 1 t) xo2 xo3 xo4 = part (fA m c) t.val t.isLt := by
  refine (caseB_3 c (grid0.coords t) (ms0_0 t) (hs0_0 t) (ms0_1 t) (hs0_1 t) (ms0_2 t) (hs0_2 t) (ms0_3 t) (hs0_3 t) (ms0_4 t) (hs0_4 t) hc (iblk m c 0 t) (iblk m c 1 t) xo2 xo3 xo4).trans ?_
  funext q
  obtain ⟨b', c', rfl⟩ : ∃ (b' : Fin 8) (c' : Fin 3), q = ix2 b' c' := ⟨q 0, q 1, eq_ix2 q⟩
  refine (stepA m c t _ b' c').trans ?_
  rw [hprev]
  exact (partialSum_step (fA m c) t.val (lt32 t) b' c' h0).symm

theorem laterB (c : Dev nD) (t : Fin cfg0.N) (h0 : ¬t.val % 8 = 0) (hc : ¬cond0_0 (grid0.coords t))
    (xo2 xo3 xo4 : Vec Ideal S8x3 .f32)
    (hprev : xo4 = part (fB m c) (t.val - 1) (Nat.lt_of_le_of_lt (Nat.sub_le _ _) t.isLt)) :
    out0_B_4 c (grid0.coords t) (ms0_0 t) (hs0_0 t) (ms0_1 t) (hs0_1 t) (ms0_2 t) (hs0_2 t) (ms0_3 t) (hs0_3 t) (ms0_4 t) (hs0_4 t) hc (iblk m c 0 t) (iblk m c 1 t) xo2 xo3 xo4 = part (fB m c) t.val t.isLt := by
  refine (caseB_4 c (grid0.coords t) (ms0_0 t) (hs0_0 t) (ms0_1 t) (hs0_1 t) (ms0_2 t) (hs0_2 t) (ms0_3 t) (hs0_3 t) (ms0_4 t) (hs0_4 t) hc (iblk m c 0 t) (iblk m c 1 t) xo2 xo3 xo4).trans ?_
  funext q
  obtain ⟨b', c', rfl⟩ : ∃ (b' : Fin 8) (c' : Fin 3), q = ix2 b' c' := ⟨q 0, q 1, eq_ix2 q⟩
  refine (stepB m c t _ b' c').trans ?_
  rw [hprev]
  exact (partialSum_step (fB m c) t.val (lt32 t) b' c' h0).symm

/-! ## The induction over the grid's points -/

theorem acc_eq (c : Dev nD) (n : ℕ) : ∀ (hn : n < cfg0.N),
    outsAt0 m c n hn = (part (fI m c) n hn, part (fA m c) n hn, part (fB m c) n hn) := by
  induction n using Nat.strong_induction_on with
  | _ n ih =>
    intro hn
    by_cases h0 : n % 8 = 0
    · rw [outsAt0_A m c ⟨n, hn⟩ h0]
      exact congrArg₂ Prod.mk (firstI m c ⟨n, hn⟩ h0 _)
        (congrArg₂ Prod.mk (firstA m c ⟨n, hn⟩ h0 _) (firstB m c ⟨n, hn⟩ h0 _))
    · have hlt : n - 1 < cfg0.N := Nat.lt_of_le_of_lt (Nat.sub_le _ _) hn
      have hp := ih (n - 1) (by omega) hlt
      rw [outsAt0_B m c ⟨n, hn⟩ h0]
      exact congrArg₂ Prod.mk
        (laterI m c ⟨n, hn⟩ h0 _ _ _ _ (congrArg (fun p => p.1) hp))
        (congrArg₂ Prod.mk
          (laterA m c ⟨n, hn⟩ h0 _ _ _ _ (congrArg (fun p => p.2.1) hp))
          (laterB m c ⟨n, hn⟩ h0 _ _ _ _ (congrArg (fun p => p.2.2) hp)))

end Cert.KernelIdeal.RunValue

end
-- ==== Proof.KernelArrays.lean ====
/-
  The idealized kernel's three per-(image, channel) arrays after the run.

  An accumulator block is written back at the last row tile of its image block (the points `t` with `t % 8 = 7`),
  where the running sum is the whole spatial sum; it lands on images `8·(t / 8) … + 7`, all three channels. Those
  blocks cover the [32, 3] arrays, so the arrays end at the intersection counts and the two arrays' counts.
-/
import proofs.«118731_j25640954757369_1_alg».proof.Proof.KernelAcc

noncomputable section

open scoped BigOperators
open Idealize.ShloMosaic Idealize.ShloMosaic.TcCoe Idealize.SL.Sem Idealize.ShloMosaic.ValueIdx
open Idealize.ShloMosaic.Pipeline (Dat)

namespace Cert.KernelIdeal.RunValue

open Cert.KernelIdeal Cert.KernelIdeal.Gen Cert.KernelIdeal.Payload Cert.Jaccard

variable (m : (ℓ : Loc nD τ sig) → Buf (Elt Ideal) ℓ)

/-- The intersection counts and the counts at an (image, channel) pair given by its coordinates. -/
theorem inter_ix2 (x y : FVec Ideal Arr .f32) (b : Fin 32) (c : Fin 3) :
    inter x y (ix2 b c) = spatial (fun i => mark (x i) * mark (y i)) b c := rfl
theorem count_ix2 (x : FVec Ideal Arr .f32) (b : Fin 32) (c : Fin 3) :
    count x (ix2 b c) = spatial (fun i => mark (x i)) b c := rfl

/-! ### Output window 2 -/

/-- An entry of point `t`'s block of window 2, read off any contents `G` of its array: image `8·(t / 8) + q₀`, channel `q₁`. -/
theorem read_blk2 (c : Dev nD) (t : Fin cfg0.N) (G : Buf (Elt Ideal) ((c : Thread nD τ).loc main_v0_0))
    (q : ((cfg0.win 2).xblock (grid0.coords t)).Idx) (hq0 : (q 0).val < 8) (hq1 : (q 1).val < 3) :
    ((cfg0.win 2).blk t).view.read (Elt Ideal) G q
      = G (ix2 (img t.val (lt32 t) ⟨(q 0).val, hq0⟩) ⟨(q 1).val, hq1⟩) := by
  obtain ⟨-, -, -, -, -, -, -, -, e20, e21, e30, e31, e40, e41⟩ := idx_facts t
  rw [View.read_apply]
  show G _ = G _
  refine congrArg G ?_
  funext a
  apply Fin.ext
  match a with
  | ⟨0, _⟩ => show win0_2.index t (0 : Fin 2) * 8 + 1 * (q 0).val = 8 * (t.val / 8) + (q 0).val; rw [e20]; omega
  | ⟨1, _⟩ => show win0_2.index t (1 : Fin 2) * 3 + 1 * (q 1).val = (q 1).val; rw [e21]; omega

/-- What a flushing point writes back through window 2 is its block of the array function. -/
theorem flushed2_eq (c : Dev nD) (t : Fin cfg0.N) (hf : (cfg0.win 2).flush t = true) :
    (dats m 0 c).flushed 2 t = ((cfg0.win 2).blk t).view.read (Elt Ideal) (inter (xa m c) (xb m c) : Buf (Elt Ideal) ((c : Thread nD τ).loc main_v0_0)) := by
  have h7 : t.val % 8 = 7 := (flush0_2 t).mp hf
  show (cfg0.win 2).cut (grid0.coords t) ((dats m 0 c).after 2 t) = _
  rw [after0_2, acc_eq m c t.val t.isLt]
  funext q
  have hq0 : (q 0).val < 8 := (q 0).isLt
  have hq1 : (q 1).val < 3 := (q 1).isLt
  refine (partialSum_last (fI m c) t.val (lt32 t) ⟨(q 0).val, hq0⟩ ⟨(q 1).val, hq1⟩ h7).trans ?_
  rw [read_blk2 c t _ q hq0 hq1, inter_ix2]

/-- Every (image, channel) entry lies in the block of the last row tile's point of its image block. -/
theorem cover2 (c : Dev nD) (i : ((c : Thread nD τ).loc main_v0_0).2.ty.Idx) :
    ∃ t : Fin cfg0.N, (cfg0.win 2).flush t = true ∧ i ∈ ((cfg0.win 2).blk t).view.set := by
  have hi0 : (i 0).val < 32 := (i 0).isLt
  have hi1 : (i 1).val < 3 := (i 1).isLt
  obtain ⟨t, ht⟩ : ∃ t : Fin cfg0.N, t.val = 8 * ((i 0).val / 8) + 7 :=
    ⟨⟨8 * ((i 0).val / 8) + 7, by rw [show cfg0.N = 32 from N_0]; omega⟩, rfl⟩
  obtain ⟨-, -, -, -, -, -, -, -, e20, e21, e30, e31, e40, e41⟩ := idx_facts t
  refine ⟨t, (flush0_2 t).mpr (by rw [ht]; omega), ?_⟩
  show i ∈ ((View.whole main_v0_0).slice (win0_2.rect t)).set
  rw [View.set_slice_whole, Rect.mem_set_unit]
  intro a
  match a with
  | ⟨0, _⟩ =>
    show win0_2.index t (0 : Fin 2) * 8 ≤ (i 0).val ∧ (i 0).val < win0_2.index t (0 : Fin 2) * 8 + 8
    rw [e20, ht]; omega
  | ⟨1, _⟩ =>
    show win0_2.index t (1 : Fin 2) * 3 ≤ (i 1).val ∧ (i 1).val < win0_2.index t (1 : Fin 2) * 3 + 3
    rw [e21]; omega

/-- So the array behind window 2 ends at the intersection counts. -/
theorem final2 (c : Dev nD) : (dats m 0 c).arrAt 2 cfg0.N = (inter (xa m c) (xb m c) : Buf (Elt Ideal) ((c : Thread nD τ).loc main_v0_0)) :=
  (dats m 0 c).arrAt_eq_of_cover 2 _ (flushed2_eq m c) (cover2 c)

/-! ### Output window 3 -/

/-- An entry of point `t`'s block of window 3, read off any contents `G` of its array: image `8·(t / 8) + q₀`, channel `q₁`. -/
theorem read_blk3 (c : Dev nD) (t : Fin cfg0.N) (G : Buf (Elt Ideal) ((c : Thread nD τ).loc main_v0_1))
    (q : ((cfg0.win 3).xblock (grid0.coords t)).Idx) (hq0 : (q 0).val < 8) (hq1 : (q 1).val < 3) :
    ((cfg0.win 3).blk t).view.read (Elt Ideal) G q
      = G (ix2 (img t.val (lt32 t) ⟨(q 0).val, hq0⟩) ⟨(q 1).val, hq1⟩) := by
  obtain ⟨-, -, -, -, -, -, -, -, e20, e21, e30, e31, e40, e41⟩ := idx_facts t
  rw [View.read_apply]
  show G _ = G _
  refine congrArg G ?_
  funext a
  apply Fin.ext
  match a with
  | ⟨0, _⟩ => show win0_3.index t (0 : Fin 2) * 8 + 1 * (q 0).val = 8 * (t.val / 8) + (q 0).val; rw [e30]; omega
  | ⟨1, _⟩ => show win0_3.index t (1 : Fin 2) * 3 + 1 * (q 1).val = (q 1).val; rw [e31]; omega

/-- What a flushing point writes back through window 3 is its block of the array function. -/
theorem flushed3_eq (c : Dev nD) (t : Fin cfg0.N) (hf : (cfg0.win 3).flush t = true) :
    (dats m 0 c).flushed 3 t = ((cfg0.win 3).blk t).view.read (Elt Ideal) (count (xa m c) : Buf (Elt Ideal) ((c : Thread nD τ).loc main_v0_1)) := by
  have h7 : t.val % 8 = 7 := (flush0_3 t).mp hf
  show (cfg0.win 3).cut (grid0.coords t) ((dats m 0 c).after 3 t) = _
  rw [after0_3, acc_eq m c t.val t.isLt]
  funext q
  have hq0 : (q 0).val < 8 := (q 0).isLt
  have hq1 : (q 1).val < 3 := (q 1).isLt
  refine (partialSum_last (fA m c) t.val (lt32 t) ⟨(q 0).val, hq0⟩ ⟨(q 1).val, hq1⟩ h7).trans ?_
  rw [read_blk3 c t _ q hq0 hq1, count_ix2]

/-- Every (image, channel) entry lies in the block of the last row tile's point of its image block. -/
theorem cover3 (c : Dev nD) (i : ((c : Thread nD τ).loc main_v0_1).2.ty.Idx) :
    ∃ t : Fin cfg0.N, (cfg0.win 3).flush t = true ∧ i ∈ ((cfg0.win 3).blk t).view.set := by
  have hi0 : (i 0).val < 32 := (i 0).isLt
  have hi1 : (i 1).val < 3 := (i 1).isLt
  obtain ⟨t, ht⟩ : ∃ t : Fin cfg0.N, t.val = 8 * ((i 0).val / 8) + 7 :=
    ⟨⟨8 * ((i 0).val / 8) + 7, by rw [show cfg0.N = 32 from N_0]; omega⟩, rfl⟩
  obtain ⟨-, -, -, -, -, -, -, -, e20, e21, e30, e31, e40, e41⟩ := idx_facts t
  refine ⟨t, (flush0_3 t).mpr (by rw [ht]; omega), ?_⟩
  show i ∈ ((View.whole main_v0_1).slice (win0_3.rect t)).set
  rw [View.set_slice_whole, Rect.mem_set_unit]
  intro a
  match a with
  | ⟨0, _⟩ =>
    show win0_3.index t (0 : Fin 2) * 8 ≤ (i 0).val ∧ (i 0).val < win0_3.index t (0 : Fin 2) * 8 + 8
    rw [e30, ht]; omega
  | ⟨1, _⟩ =>
    show win0_3.index t (1 : Fin 2) * 3 ≤ (i 1).val ∧ (i 1).val < win0_3.index t (1 : Fin 2) * 3 + 3
    rw [e31]; omega

/-- So the array behind window 3 ends at the first array's counts. -/
theorem final3 (c : Dev nD) : (dats m 0 c).arrAt 3 cfg0.N = (count (xa m c) : Buf (Elt Ideal) ((c : Thread nD τ).loc main_v0_1)) :=
  (dats m 0 c).arrAt_eq_of_cover 3 _ (flushed3_eq m c) (cover3 c)

/-! ### Output window 4 -/

/-- An entry of point `t`'s block of window 4, read off any contents `G` of its array: image `8·(t / 8) + q₀`, channel `q₁`. -/
theorem read_blk4 (c : Dev nD) (t : Fin cfg0.N) (G : Buf (Elt Ideal) ((c : Thread nD τ).loc main_v0_2))
    (q : ((cfg0.win 4).xblock (grid0.coords t)).Idx) (hq0 : (q 0).val < 8) (hq1 : (q 1).val < 3) :
    ((cfg0.win 4).blk t).view.read (Elt Ideal) G q
      = G (ix2 (img t.val (lt32 t) ⟨(q 0).val, hq0⟩) ⟨(q 1).val, hq1⟩) := by
  obtain ⟨-, -, -, -, -, -, -, -, e20, e21, e30, e31, e40, e41⟩ := idx_facts t
  rw [View.read_apply]
  show G _ = G _
  refine congrArg G ?_
  funext a
  apply Fin.ext
  match a with
  | ⟨0, _⟩ => show win0_4.index t (0 : Fin 2) * 8 + 1 * (q 0).val = 8 * (t.val / 8) + (q 0).val; rw [e40]; omega
  | ⟨1, _⟩ => show win0_4.index t (1 : Fin 2) * 3 + 1 * (q 1).val = (q 1).val; rw [e41]; omega

/-- What a flushing point writes back through window 4 is its block of the array function. -/
theorem flushed4_eq (c : Dev nD) (t : Fin cfg0.N) (hf : (cfg0.win 4).flush t = true) :
    (dats m 0 c).flushed 4 t = ((cfg0.win 4).blk t).view.read (Elt Ideal) (count (xb m c) : Buf (Elt Ideal) ((c : Thread nD τ).loc main_v0_2)) := by
  have h7 : t.val % 8 = 7 := (flush0_4 t).mp hf
  show (cfg0.win 4).cut (grid0.coords t) ((dats m 0 c).after 4 t) = _
  rw [after0_4, acc_eq m c t.val t.isLt]
  funext q
  have hq0 : (q 0).val < 8 := (q 0).isLt
  have hq1 : (q 1).val < 3 := (q 1).isLt
  refine (partialSum_last (fB m c) t.val (lt32 t) ⟨(q 0).val, hq0⟩ ⟨(q 1).val, hq1⟩ h7).trans ?_
  rw [read_blk4 c t _ q hq0 hq1, count_ix2]

/-- Every (image, channel) entry lies in the block of the last row tile's point of its image block. -/
theorem cover4 (c : Dev nD) (i : ((c : Thread nD τ).loc main_v0_2).2.ty.Idx) :
    ∃ t : Fin cfg0.N, (cfg0.win 4).flush t = true ∧ i ∈ ((cfg0.win 4).blk t).view.set := by
  have hi0 : (i 0).val < 32 := (i 0).isLt
  have hi1 : (i 1).val < 3 := (i 1).isLt
  obtain ⟨t, ht⟩ : ∃ t : Fin cfg0.N, t.val = 8 * ((i 0).val / 8) + 7 :=
    ⟨⟨8 * ((i 0).val / 8) + 7, by rw [show cfg0.N = 32 from N_0]; omega⟩, rfl⟩
  obtain ⟨-, -, -, -, -, -, -, -, e20, e21, e30, e31, e40, e41⟩ := idx_facts t
  refine ⟨t, (flush0_4 t).mpr (by rw [ht]; omega), ?_⟩
  show i ∈ ((View.whole main_v0_2).slice (win0_4.rect t)).set
  rw [View.set_slice_whole, Rect.mem_set_unit]
  intro a
  match a with
  | ⟨0, _⟩ =>
    show win0_4.index t (0 : Fin 2) * 8 ≤ (i 0).val ∧ (i 0).val < win0_4.index t (0 : Fin 2) * 8 + 8
    rw [e40, ht]; omega
  | ⟨1, _⟩ =>
    show win0_4.index t (1 : Fin 2) * 3 ≤ (i 1).val ∧ (i 1).val < win0_4.index t (1 : Fin 2) * 3 + 3
    rw [e41]; omega

/-- So the array behind window 4 ends at the second array's counts. -/
theorem final4 (c : Dev nD) : (dats m 0 c).arrAt 4 cfg0.N = (count (xb m c) : Buf (Elt Ideal) ((c : Thread nD τ).loc main_v0_2)) :=
  (dats m 0 c).arrAt_eq_of_cover 4 _ (flushed4_eq m c) (cover4 c)

end Cert.KernelIdeal.RunValue

end
-- ==== Proof.KernelTail.lean ====
/-
  The idealized kernel's run, read as a value: its result is `Jaccard.result` of its two argument arrays.

  After the kernel, the program's remaining operations compute the union, the guarded ratio and the mean from the
  three per-(image, channel) arrays (`tail_of`: whatever the rest of memory holds, the result buffer ends at the
  shared tail of those three arrays). With the arrays at the intersection counts and the two arrays' counts, that is
  `Jaccard.result`.
-/
import proofs.«118731_j25640954757369_1_alg».proof.Proof.KernelArrays
import Idealize.ShloMosaic.Lib.StableHlo.Run

noncomputable section

open Idealize.ShloMosaic Idealize.ShloMosaic.TcCoe Idealize.SL.Sem
open Idealize.ShloMosaic.Pipeline (Dat)

namespace Cert.KernelIdeal.RunValue

open Cert.KernelIdeal Cert.KernelIdeal.Gen Cert.Jaccard

section AnyValues

variable {F : FTy → Type} [FloatOps F]

/-- The operations after the kernel, run from any memory `W`: the result buffer ends at the shared tail of what `W`
    holds in the kernel's three result arrays. -/
theorem tail_of (W : Valuation τ sig (Elt F)) :
    StableHlo.after (List.flatten [hostOps1, hostOps1_1, hostOps1_2, hostOps1_3, hostOps1_4]) W (Proc.devRef .tc main_v11)
      = iouMean bcast_S_S32x3 reducesTo_S32x3_S_d0_1 h_S_
          (W (Proc.devRef .tc main_v0_0)) (W (Proc.devRef .tc main_v0_1)) (W (Proc.devRef .tc main_v0_2)) := by
  simp only [hostOps1, hostOps1_1, hostOps1_2, hostOps1_3, hostOps1_4, List.flatten_cons, List.flatten_nil,
    List.append_nil, List.cons_append, List.nil_append]
  after_results
  rfl

end AnyValues

variable (m : (ℓ : Loc nD τ sig) → Buf (Elt Ideal) ℓ) (ρ : Dev nD → PrngReg)

/-- The result buffer after the whole program: the tail of the three final arrays. -/
theorem tail_eq (c : Dev nD) :
    Pipeline.afterTail₀ cfgs (dats m) 0 (V0 m) [hostOps1, hostOps1_1, hostOps1_2, hostOps1_3, hostOps1_4] c main_v11
      = result (xa m c) (xb m c) := by
  unfold Pipeline.afterTail₀
  refine (tail_of _).trans ?_
  have e2 := (Pipeline.withArrays_arr spec0 launch0.win.arr_inj c (V0 m c) (fun w => (dats m 0 c).arrAt w cfg0.N) 2).trans (final2 m c)
  have e3 := (Pipeline.withArrays_arr spec0 launch0.win.arr_inj c (V0 m c) (fun w => (dats m 0 c).arrAt w cfg0.N) 3).trans (final3 m c)
  have e4 := (Pipeline.withArrays_arr spec0 launch0.win.arr_inj c (V0 m c) (fun w => (dats m 0 c).arrAt w cfg0.N) 4).trans (final4 m c)
  exact congr (congr (congrArg (iouMean (F := Ideal) bcastBC reduceBC scPos) e2) e3) e4

/-- The run: the result at `Jaccard.result` of the arguments, the arguments unchanged. -/
theorem run : θ_run defs (onTc (τ := τ) (main (F := Ideal))) ⟨m, fun _ => 0, ρ⟩ fun r => ∀ c : Dev nD,
      r.2.mem ((c : Thread nD τ).loc main_v11) = result (xa m c) (xb m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v11 (Pipeline.mem_restRefs_of main_v11 rfl (by decide))).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.RunValue

end
-- ==== Proof.RefValue.lean ====
/-
  What the reference computes, read at the extended reals: its result is `Jaccard.result` of its two arguments.

  The reference marks each array (`x ≥ 1/2` as 0 or 1), sums the products and the marks over the two spatial axes in one
  reduction each, and applies the union / ratio / mean tail. The reduction over the two axes, at an (image, channel)
  pair, is the sum over all positions that drop to that pair, which is the double sum over rows and columns
  (`Jaccard.sum_fiber`); the initial value of each reduction is zero.
-/
import proofs.«118731_j25640954757369_1_alg».proof.Proof.RefRun
import proofs.«118731_j25640954757369_1_alg».proof.Proof.Jaccard
import Idealize.ShloMosaic.PureOps.Ideal.Laws
import Idealize.ShloMosaic.Lib.ValueIdx

noncomputable section

open scoped BigOperators

namespace Cert.ReferenceIdeal.RefValue

open Cert.ReferenceIdeal Cert.ReferenceIdeal.Gen Idealize.ShloMosaic Idealize.ShloMosaic.TcCoe Idealize.SL.Sem
open Idealize.ShloMosaic.ValueIdx Cert.Jaccard

section AnyValues

variable {F : FTy → Type} [FloatOps F]

/-- The reference's marks of an array: the comparison with one half, converted to a float. -/
def marks (x : FVec F S32x3x512x512 .f32) : FVec F S32x3x512x512 .f32 :=
  uitofp (F := F) .f32 (cmpf (F := F) .oge x (broadcastInDim S32x3x512x512 ![] bcast_S_S32x3x512x512 (constant S_ .f32 0x3F000000#32)))

/-- The reference's sum over the two spatial axes, from zero. -/
def sums (x : FVec F S32x3x512x512 .f32) : FVec F S32x3 .f32 :=
  Host.reduceAdd x (constant S_ .f32 0x00000000#32) reducesTo_S32x3x512x512_S32x3_d2_3 h_S_

/-- The reference's run: its result is the tail of its three sums, its arguments unchanged. -/
theorem run_tail (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v20)
        = iouMean bcast_S_S32x3 reducesTo_S32x3_S_d0_1 h_S_
            (sums (mulf (marks (m ((c.tc : Thread nD τ).loc main_arg0))) (marks (m ((c.tc : Thread nD τ).loc main_arg1)))))
            (sums (marks (m ((c.tc : Thread nD τ).loc main_arg0))))
            (sums (marks (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans rfl, (h c).2⟩) (Cert.ReferenceIdeal.ValueP.run m ρ)

end AnyValues

/-! ## At the extended reals -/

/-- A mark of the reference at a position is the mark of the array's entry there. -/
theorem marks_apply (x : FVec Ideal S32x3x512x512 .f32) (i : S32x3x512x512.Idx) : marks x i = mark (x i) := rfl

/-- The reduction's drop sends a position (b, c, r, w) to (b, c). -/
theorem drop_eq (i : S32x3x512x512.Idx) : reducesTo_S32x3x512x512_S32x3_d2_3.drop i = ix2 (i 0) (i 1) := by
  funext b
  apply Fin.ext
  match b with
  | ⟨0, _⟩ => exact reducesTo_S32x3x512x512_S32x3_d2_3.drop_apply_val_of_eq i 0 0
  | ⟨1, _⟩ => exact reducesTo_S32x3x512x512_S32x3_d2_3.drop_apply_val_of_eq i 1 1

/-- The reference's sum at an (image, channel) pair is the spatial sum there. -/
theorem sums_apply (x : FVec Ideal S32x3x512x512 .f32) (j : S32x3.Idx) : sums x j = spatial x (j 0) (j 1) := by
  show Ideal.hostReduceAdd reducesTo_S32x3x512x512_S32x3_d2_3 x (Ideal.ofBits .f32 0x00000000#32) j = _
  unfold Ideal.hostReduceAdd
  rw [sum_fiber _ drop_eq x j, Ideal.ofBits_zero_f32, zero_add]

/-- So the three sums are the intersection and the two counts. -/
theorem sums_inter (x y : FVec Ideal S32x3x512x512 .f32) : sums (mulf (marks x) (marks y)) = inter x y :=
  funext fun j => sums_apply _ j
theorem sums_count (x : FVec Ideal S32x3x512x512 .f32) : sums (marks x) = count x :=
  funext fun j => sums_apply _ j

/-- The reference's run at the extended reals: its result is `Jaccard.result` of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v20)
        = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (by rw [sums_inter, sums_count, sums_count]; rfl), (h c).2⟩)
    (run_tail (F := Ideal) m ρ)

end Cert.ReferenceIdeal.RefValue

end
-- ==== Proof.lean ====
/-
  Binary Jaccard index (intersection over union), kernel against reference, over the extended reals.

  Both programs mark the entries of two arrays of shape [32, 3, 512, 512] that are at least one half (0 or 1), take
  per image and channel the spatial sums of the marks' product `i` and of the two marks `a`, `b`, form the union
  `u = a + b − i`, the ratio `i / u` where `u > 0` and 1 elsewhere, and return the mean of the 96 ratios.

  The kernel walks a 4 × 8 grid: blocks of 8 images and 64 rows, the three sums kept in accumulators that start from
  zero at the first row tile of an image block and are written back after the eighth. A sum over 512 rows is the sum
  over the 8 tiles of the sums over each tile's 64 rows, so the kernel's three arrays are the reference's three
  sums (addition in the extended reals is commutative and associative: no finiteness is used), and the remaining
  operations are the same function of them in both programs.

    frame_Kernel, frame_KernelIdeal — the generated frame runs.
    frame_ReferenceIdeal — the reference's run with its result dropped.
    preserves_Kernel_KernelIdeal — the idealization rewrote nothing.
    algebraic_KernelIdeal_ReferenceIdeal — both runs end at `Jaccard.result` of the (agreeing) arguments:
      Proof/KernelTail.lean for the kernel, Proof/RefValue.lean for the reference.
-/
import proofs.«118731_j25640954757369_1_alg».proof.Defs
import proofs.«118731_j25640954757369_1_alg».proof.Proof.Gen.Kernel
import proofs.«118731_j25640954757369_1_alg».proof.Proof.Gen.Kernel.Skeleton
import proofs.«118731_j25640954757369_1_alg».proof.Proof.Gen.Kernel.Launch
import proofs.«118731_j25640954757369_1_alg».proof.Proof.Gen.Kernel.Points
import proofs.«118731_j25640954757369_1_alg».proof.Proof.Gen.Kernel.Frame
import proofs.«118731_j25640954757369_1_alg».proof.Proof.Gen.KernelIdeal
import proofs.«118731_j25640954757369_1_alg».proof.Proof.Gen.KernelIdeal.Skeleton
import proofs.«118731_j25640954757369_1_alg».proof.Proof.Gen.KernelIdeal.Launch
import proofs.«118731_j25640954757369_1_alg».proof.Proof.Gen.KernelIdeal.Points
import proofs.«118731_j25640954757369_1_alg».proof.Proof.Gen.KernelIdeal.Frame
import proofs.«118731_j25640954757369_1_alg».proof.Proof.Gen.ReferenceIdeal
import proofs.«118731_j25640954757369_1_alg».proof.Proof.Gen.Pre_finite_inputs
import proofs.«118731_j25640954757369_1_alg».proof.Proof.KernelTail
import proofs.«118731_j25640954757369_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end at the mean intersection over union of their arguments, which agree. -/
theorem algebraic : Cert.algebraic_KernelIdeal_ReferenceIdeal := by
  intro m ρ m' ρ' _ hagree
  refine ⟨fun c => Cert.Jaccard.result (Cert.KernelIdeal.RunValue.xa m c) (Cert.KernelIdeal.RunValue.xb m c),
    Cert.KernelIdeal.RunValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
